-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256x3 : Shape := ⟨4, ![16, 2048, 256, 3]⟩
abbrev S1 : Shape := ⟨1, ![1]⟩
abbrev S_ : Shape := ⟨0, ![]⟩

class Facts : Prop where
  bcast_S_S16x2048x256x3 : S_.BroadcastsInDim S16x2048x256x3 (![] : Fin 0 → Fin S16x2048x256x3.rank)
  reducesTo_S16x2048x256x3_S_d0_1_2_3 : S16x2048x256x3.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S16x2048x256x3 1) : IVec S_ 1 :=
  let main_c_5 : IVec S_ 1 := constantI S_ 1 1#1
  let main_v17 : IVec S_ 1 := (fun x v => Host.reduce IntOp.andi x v reducesTo_S16x2048x256x3_S_d0_1_2_3 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x2048x256x3 .f32) (main_arg1 : FVec F S16x2048x256x3 .f32) (main_arg2 : FVec F S16x2048x256x3 .f32) (main_arg3 : FVec F S16x2048x256x3 .f32) (main_arg4 : FVec F S1 .f32) (main_arg5 : FVec F S1 .f32) (main_arg6 : FVec F S1 .f32) : IVec S_ 1 :=
  let main_v0 : FVec F S16x2048x256x3 .f32 := Host.absf main_arg0
  let main_cst : FVec F S_ .f32 := constant S_ .f32 0x7F800000#32
  let main_v1 : FVec F S16x2048x256x3 .f32 := broadcastInDim S16x2048x256x3 ![] bcast_S_S16x2048x256x3 main_cst
  let main_v2 : IVec S16x2048x256x3 1 := cmpf .olt main_v0 main_v1
  let main_c : IVec S_ 1 := constantI S_ 1 1#1
  let main_v3 : IVec S_ 1 := (fun x v => Host.reduce IntOp.andi x v reducesTo_S16x2048x256x3_S_d0_1_2_3 h_S_) main_v2 main_c
  let main_v4 : FVec F S16x2048x256x3 .f32 := Host.absf main_arg1
  let main_cst_0 : FVec F S_ .f32 := constant S_ .f32 0x7F800000#32
  let main_v5 : FVec F S16x2048x256x3 .f32 := broadcastInDim S16x2048x256x3 ![] bcast_S_S16x2048x256x3 main_cst_0
  let main_v6 : IVec S16x2048x256x3 1 := cmpf .olt main_v4 main_v5
  let main_c_1 : IVec S_ 1 := constantI S_ 1 1#1
  let main_v7 : IVec S_ 1 := (fun x v => Host.reduce IntOp.andi x v reducesTo_S16x2048x256x3_S_d0_1_2_3 h_S_) main_v6 main_c_1
  let main_v8 : IVec S_ 1 := andi main_v3 main_v7
  let main_v9 : FVec F S16x2048x256x3 .f32 := Host.absf main_arg2
  let main_cst_2 : FVec F S_ .f32 := constant S_ .f32 0x7F800000#32
  let main_v10 : FVec F S16x2048x256x3 .f32 := broadcastInDim S16x2048x256x3 ![] bcast_S_S16x2048x256x3 main_cst_2
  let main_v11 : IVec S16x2048x256x3 1 := cmpf .olt main_v9 main_v10
  let main_c_3 : IVec S_ 1 := constantI S_ 1 1#1
  let main_v12 : IVec S_ 1 := (fun x v => Host.reduce IntOp.andi x v reducesTo_S16x2048x256x3_S_d0_1_2_3 h_S_) main_v11 main_c_3
  let main_v13 : IVec S_ 1 := andi main_v8 main_v12
  let main_v14 : FVec F S16x2048x256x3 .f32 := Host.absf main_arg3
  let main_cst_4 : FVec F S_ .f32 := constant S_ .f32 0x7F800000#32
  let main_v15 : FVec F S16x2048x256x3 .f32 := broadcastInDim S16x2048x256x3 ![] bcast_S_S16x2048x256x3 main_cst_4
  let main_v16 : IVec S16x2048x256x3 1 := cmpf .olt main_v14 main_v15
  fn_part1 (F := F) main_arg4 main_arg5 main_arg6 main_v13 main_v16
-- ==== Kernel.lean ====
abbrev S16x2048x256x3 : Shape := ⟨4, ![16, 2048, 256, 3]⟩
abbrev S1 : Shape := ⟨1, ![1]⟩
abbrev S32768x768 : Shape := ⟨2, ![32768, 768]⟩
abbrev S1x1 : Shape := ⟨2, ![1, 1]⟩
abbrev S1024x768 : Shape := ⟨2, ![1024, 768]⟩
abbrev S1024 : Shape := ⟨1, ![1024]⟩
abbrev S1024x1 : Shape := ⟨2, ![1024, 1]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S16x2048x256x3, .f32⟩
  | .hbm, ⟨1, _⟩ => ⟨S16x2048x256x3, .f32⟩
  | .hbm, ⟨2, _⟩ => ⟨S16x2048x256x3, .f32⟩
  | .hbm, ⟨3, _⟩ => ⟨S16x2048x256x3, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S32768x768, .f32⟩
  | .hbm, ⟨8, _⟩ => ⟨S32768x768, .f32⟩
  | .hbm, ⟨9, _⟩ => ⟨S32768x768, .f32⟩
  | .hbm, ⟨10, _⟩ => ⟨S32768x768, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1x1, .f32⟩
  | _, _ => ⟨S16x2048x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16x2048x256x3_S32768x768 : S16x2048x256x3.ShapeCasts S32768x768
  inb_S1x1_S1x1_0_0 : ∀ a, (![0, 0] : Fin 2 → Nat) a + S1x1.size a ≤ S1x1.size a
  h_S1x1 : 0 < S1x1.numel
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S32768x768.size a
  hwx0_2 : ∀ i : grid0.Coords, EltTy.bits .f32 = 32 ∨ (Rect.block (s := S32768x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x256x3 : Shape := ⟨4, ![16, 2048, 256, 3]⟩
abbrev S1 : Shape := ⟨1, ![1]⟩
abbrev S_ : Shape := ⟨0, ![]⟩
abbrev S16x2048 : Shape := ⟨2, ![16, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x256x3, .f32⟩
  | .hbm, ⟨1, _⟩ => ⟨S16x2048x256x3, .f32⟩
  | .hbm, ⟨2, _⟩ => ⟨S16x2048x256x3, .f32⟩
  | .hbm, ⟨3, _⟩ => ⟨S16x2048x256x3, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S16x2048x256x3, .f32⟩
  | .hbm, ⟨8, _⟩ => ⟨S16x2048x256x3, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .i1⟩
  | .hbm, ⟨17, _⟩ => ⟨S_, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S_, .f32⟩
  | .hbm, ⟨23, _⟩ => ⟨S16x2048x256x3, .f32⟩
  | .hbm, ⟨24, _⟩ => ⟨S16x2048x256x3, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .i1⟩
  | .hbm, ⟨33, _⟩ => ⟨S_, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x2048x256x3, .f32⟩
  | .hbm, ⟨43, _⟩ => ⟨S16x2048x256x3, .f32⟩
  | .hbm, ⟨44, _⟩ => ⟨S_, .f32⟩
  | .hbm, ⟨45, _⟩ => ⟨S16x2048, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S_, .f32⟩
  | .hbm, ⟨54, _⟩ => ⟨S16x2048, .f32⟩
  | .hbm, ⟨55, _⟩ => ⟨S16x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16x2048x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_cst_9 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_10 : Ref sig .tc := ⟨.hbm, 44, rfl⟩
abbrev main_v22 : Ref sig .tc := ⟨.hbm, 45, rfl⟩
abbrev main_v23 : Ref sig .tc := ⟨.hbm, 46, rfl⟩
abbrev main_cst_11 : Ref sig .tc := ⟨.hbm, 47, rfl⟩
abbrev main_v24 : Ref sig .tc := ⟨.hbm, 48, rfl⟩
abbrev main_cst_12 : Ref sig .tc := ⟨.hbm, 49, rfl⟩
abbrev main_v25 : Ref sig .tc := ⟨.hbm, 50, rfl⟩
abbrev main_v26 : Ref sig .tc := ⟨.hbm, 51, rfl⟩
abbrev main_cst_13 : Ref sig .tc := ⟨.hbm, 52, rfl⟩
abbrev main_call2_v0 : Ref sig .tc := ⟨.hbm, 53, rfl⟩
abbrev main_call2_v1 : Ref sig .tc := ⟨.hbm, 54, rfl⟩
abbrev main_v27 : Ref sig .tc := ⟨.hbm, 55, rfl⟩
abbrev main_cst_14 : Ref sig .tc := ⟨.hbm, 56, rfl⟩
abbrev main_v28 : Ref sig .tc := ⟨.hbm, 57, rfl⟩
abbrev main_cst_15 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_16 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_17 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]

class Facts₀ : Prop where
  reducesTo_S16x2048x256x3_S16x2048_d2_3 : S16x2048x256x3.ReducesTo [2, 3] S16x2048
  h_S_ : 0 < S_.numel
  bcast_S_S16x2048 : S_.BroadcastsInDim S16x2048 (![] : Fin 0 → Fin S16x2048.rank)
  reducesTo_S16x2048_S_d0_1 : S16x2048.ReducesTo [0, 1] S_
  shapeCasts_S1_S_ : S1.ShapeCasts S_

variable [Facts₀]

class Facts : Prop extends Facts₀ where

variable [Facts]
-- ==== Proof.KPieces.lean ====
/-
  What one grid point leaves in the 1 × 1 accumulator, for any float instance.
  The body loads the four input blocks whole, computes one value from them and from the accumulator's present
  contents, and stores it over the whole accumulator (`stepVal`). At the first grid point it first stores zero
  and reads that back, so the "present contents" are the zero block; at every other point they are what the
  point before left. The one store covers the accumulator, so what is read back afterwards is the stored value.
-/
import proofs.«167585_j21010980012214_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offset of a 2-D block. -/
theorem hz : (![0, 0] : Fin 2 → Nat) = fun _ => 0 := funext fun a => by fin_cases a <;> rfl

/-- The value the body stores: from the blocks of out, gt1, gt2 (`x0`, `x1`, `x2`), the target block `x3`
    and the accumulator's contents `acc`. -/
abbrev stepVal (x0 x1 x2 x3 : Vec F S1024x768 .f32) (acc : Vec F S1x1 .f32) : FVec F S1x1 .f32 :=
  k0_pay1 (k0_pay4 x3) (k0_pay5 x3 x0 x1) (k0_pay6 x3 x2) acc

/-- At a grid point other than the first the accumulator ends at the stored value over what it held. -/
theorem out_B (c : Dev nD) (i : grid0.Coords) (a1 : Memref sig .tc .vmem S1024x768 .f32) (h1 : a1.IsWhole) (a2 : Memref sig .tc .vmem S1024x768 .f32) (h2 : a2.IsWhole) (a3 : Memref sig .tc .vmem S1024x768 .f32) (h3 : a3.IsWhole) (a4 : Memref sig .tc .vmem S1024x768 .f32) (h4 : a4.IsWhole) (a5 : Memref sig .tc .vmem S1x1 .f32) (h5 : a5.IsWhole) (hc : ¬cond0_0 i)
    (x0 x1 x2 x3 : Vec F S1024x768 .f32) (xo : Vec F S1x1 .f32) :
    out0_B_4 c i a1 h1 a2 h2 a3 h3 a4 h4 a5 h5 hc x0 x1 x2 x3 xo = stepVal x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1024x768) hz, View.ld_unit_zero (S := S1x1) hz]

/-- At the first grid point it ends at the stored value over the zero block just written. -/
theorem out_A (c : Dev nD) (i : grid0.Coords) (a1 : Memref sig .tc .vmem S1024x768 .f32) (h1 : a1.IsWhole) (a2 : Memref sig .tc .vmem S1024x768 .f32) (h2 : a2.IsWhole) (a3 : Memref sig .tc .vmem S1024x768 .f32) (h3 : a3.IsWhole) (a4 : Memref sig .tc .vmem S1024x768 .f32) (h4 : a4.IsWhole) (a5 : Memref sig .tc .vmem S1x1 .f32) (h5 : a5.IsWhole) (hc : cond0_0 i)
    (x0 x1 x2 x3 : Vec F S1024x768 .f32) :
    out0_A_4 c i a1 h1 a2 h2 a3 h3 a4 h4 a5 h5 hc x0 x1 x2 x3 = stepVal x0 x1 x2 x3 (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz]
  simp only [View.readAt_eq_ld, h1.read_unread, h2.read_unread, h3.read_unread, h4.read_unread,
    View.ld_unit_zero (S := S1024x768) hz, View.readCov_unit_zero (S := S1x1) _ hz]

end Cert.KernelIdeal.Pieces

end
-- ==== Proof.Index.lean ====
/-
  Indices. The four big arrays have shape [16, 2048, 256, 3]; a ROW is the 768 = 256 · 3 entries that share the
  first two coordinates (b, s). Entry l of row (b, s) sits at (b, s, l / 3, l % 3).
   * The reference reduces over the last two axes: the indices that drop to (b, s) are exactly the row's 768
     entries (`row_fiber`).
   * The kernel first reshapes to [32768, 768] (row-major, so row R = 2048·b + s keeps its 768 entries in order:
     `reshape_row`) and walks the rows in 32 blocks of 1024: row r of block t is row R = 1024·t + r, that is
     (b, s) = (R / 2048, R % 2048).
   * (t, r) ↦ (b, s) is a bijection of [32] × [1024] with [16] × [2048], so a sum over all rows (b, s) is the
     double sum over blocks and rows in the block (`sum_rows`).
-/
import Idealize.ShloMosaic.Lib.ValueIdx
import Idealize.ShloMosaic.Lib.Pipeline.Value

noncomputable section

open scoped BigOperators

namespace Cert.NofLoss.Index

open Idealize.ShloMosaic Idealize.ShloMosaic.ValueIdx

/-- The arrays' shape, … -/
abbrev S4 : Shape := ⟨4, ![16, 2048, 256, 3]⟩
/-- … the shape of one value per row, … -/
abbrev S2 : Shape := ⟨2, ![16, 2048]⟩
/-- … and the kernel's flattened view: 32768 rows of 768. -/
abbrev SF : Shape := ⟨2, ![32768, 768]⟩

/-- Entry `l` of row `(b, s)`. -/
abbrev entry (b : Fin 16) (s : Fin 2048) (l : Fin 768) : S4.Idx :=
  ix4 b s ⟨l.val / 3, by have := l.isLt; omega⟩ ⟨l.val % 3, by have := l.isLt; omega⟩

/-- Different entries of a row are different indices. -/
theorem entry_injective (b : Fin 16) (s : Fin 2048) : Function.Injective (entry b s) := by
  intro l l' h
  have h2 : l.val / 3 = l'.val / 3 := congrArg (fun i : S4.Idx => (i 2).val) h
  have h3 : l.val % 3 = l'.val % 3 := congrArg (fun i : S4.Idx => (i 3).val) h
  exact Fin.ext (by omega)

/-- A row's entries as an embedding of [768] into the array's indices. -/
def entryEmb (b : Fin 16) (s : Fin 2048) : Fin 768 ↪ S4.Idx := ⟨entry b s, entry_injective b s⟩

/-- The indices a reduction over the last two axes sends to `(b, s)` are the 768 entries of row `(b, s)`. -/
theorem row_fiber (h' : S4.ReducesTo [2, 3] S2) (b : Fin 16) (s : Fin 2048) :
    Finset.univ.filter (fun i : S4.Idx => h'.drop i = ix2 b s) = Finset.univ.map (entryEmb b s) := by
  ext i
  simp only [Finset.mem_filter, Finset.mem_univ, true_and, Finset.mem_map, entryEmb, Function.Embedding.coeFn_mk]
  constructor
  · intro h
    have h0 : (i 0).val = b.val := congrArg (fun q : S2.Idx => (q 0).val) h
    have h1 : (i 1).val = s.val := congrArg (fun q : S2.Idx => (q 1).val) h
    have b2 : (i 2).val < 256 := (i 2).isLt
    have b3 : (i 3).val < 3 := (i 3).isLt
    refine ⟨⟨3 * (i 2).val + (i 3).val, by omega⟩, ?_⟩
    funext a
    match a with
    | ⟨0, _⟩ => exact Fin.ext h0.symm
    | ⟨1, _⟩ => exact Fin.ext h1.symm
    | ⟨2, _⟩ => exact Fin.ext (by show (3 * (i 2).val + (i 3).val) / 3 = (i 2).val; omega)
    | ⟨3, _⟩ => exact Fin.ext (by show (3 * (i 2).val + (i 3).val) % 3 = (i 3).val; omega)
  · rintro ⟨l, rfl⟩
    funext a
    match a with
    | ⟨0, _⟩ => rfl
    | ⟨1, _⟩ => rfl

/-- The first coordinate of global row `1024·t + r` … -/
abbrev rowB (t : Fin 32) (r : Fin 1024) : Fin 16 :=
  ⟨(1024 * t.val + r.val) / 2048, by have := t.isLt; have := r.isLt; omega⟩
/-- … and its second. -/
abbrev rowS (t : Fin 32) (r : Fin 1024) : Fin 2048 :=
  ⟨(1024 * t.val + r.val) % 2048, by omega⟩

/-- The flattened view reads row `1024·t + r`, entry `l`, at that row's entry `l` of the array: both sit at
    row-major position `(1024·t + r)·768 + l`. -/
theorem reshape_row {α : Type} (x : S4.Idx → α) (h : S4.ShapeCasts SF) (t : Fin 32) (r : Fin 1024) (l : Fin 768) :
    shapeCast SF x h (ix2 ⟨1024 * t.val + r.val, by have := t.isLt; have := r.isLt; omega⟩ l)
      = x (entry (rowB t r) (rowS t r) l) := by
  refine shapeCast_apply x h _ _ ?_
  rw [Shape.rowMajor_val_four, Shape.rowMajor_val_two]
  show ((((1024 * t.val + r.val) / 2048) * 2048 + (1024 * t.val + r.val) % 2048) * 256 + l.val / 3) * 3 + l.val % 3
    = (1024 * t.val + r.val) * 768 + l.val
  omega

/-- A one-element vector reshaped to a scalar reads its one element … -/
theorem reshape_scalar {α : Type} (x : (⟨1, ![1]⟩ : Shape).Idx → α) (h : (⟨1, ![1]⟩ : Shape).ShapeCasts ⟨0, ![]⟩)
    (i : (⟨0, ![]⟩ : Shape).Idx) : shapeCast ⟨0, ![]⟩ x h i = x (ix1 0) := by
  refine shapeCast_apply x h i (ix1 0) ?_
  have h1 : ((⟨0, ![]⟩ : Shape).rowMajor i).val < 1 := ((⟨0, ![]⟩ : Shape).rowMajor i).isLt
  rw [Shape.rowMajor_val_one]
  show (0 : Nat) = _
  omega

/-- … and so does a 1 × 1 block. -/
theorem reshape_unit {α : Type} (x : (⟨2, ![1, 1]⟩ : Shape).Idx → α) (h : (⟨2, ![1, 1]⟩ : Shape).ShapeCasts ⟨0, ![]⟩)
    (i : (⟨0, ![]⟩ : Shape).Idx) : shapeCast ⟨0, ![]⟩ x h i = x (ix2 0 0) := by
  refine shapeCast_apply x h i (ix2 0 0) ?_
  have h1 : ((⟨0, ![]⟩ : Shape).rowMajor i).val < 1 := ((⟨0, ![]⟩ : Shape).rowMajor i).isLt
  rw [Shape.rowMajor_val_two]
  show (0 : Nat) * 1 + 0 = _
  omega

/-- (block, row in block) ↔ (b, s). -/
def rowEquiv : Fin 32 × Fin 1024 ≃ Fin 16 × Fin 2048 where
  toFun p := (rowB p.1 p.2, rowS p.1 p.2)
  invFun q := (⟨(2048 * q.1.val + q.2.val) / 1024, by have := q.1.isLt; have := q.2.isLt; omega⟩,
    ⟨(2048 * q.1.val + q.2.val) % 1024, by omega⟩)
  left_inv p := by
    have := p.1.isLt; have := p.2.isLt
    refine Prod.ext (Fin.ext ?_) (Fin.ext ?_)
    · show (2048 * ((1024 * p.1.val + p.2.val) / 2048) + (1024 * p.1.val + p.2.val) % 2048) / 1024 = p.1.val
      omega
    · show (2048 * ((1024 * p.1.val + p.2.val) / 2048) + (1024 * p.1.val + p.2.val) % 2048) % 1024 = p.2.val
      omega
  right_inv q := by
    have := q.1.isLt; have := q.2.isLt
    refine Prod.ext (Fin.ext ?_) (Fin.ext ?_)
    · show (1024 * ((2048 * q.1.val + q.2.val) / 1024) + (2048 * q.1.val + q.2.val) % 1024) / 2048 = q.1.val
      omega
    · show (1024 * ((2048 * q.1.val + q.2.val) / 1024) + (2048 * q.1.val + q.2.val) % 1024) % 2048 = q.2.val
      omega

/-- A sum over all rows `(b, s)` is the sum over the 32 blocks of the sums over each block's 1024 rows. -/
theorem sum_rows {M : Type*} [AddCommMonoid M] (f : Fin 16 → Fin 2048 → M) :
    ∑ j : S2.Idx, f (j 0) (j 1) = ∑ t : Fin 32, ∑ r : Fin 1024, f (rowB t r) (rowS t r) := by
  rw [sum_idx2 (fun j : S2.Idx => f (j 0) (j 1)), ← Fintype.sum_prod_type' (f := fun b s => f b s),
    ← Equiv.sum_comp rowEquiv (fun q : Fin 16 × Fin 2048 => f q.1 q.2), Fintype.sum_prod_type]
  rfl

end Cert.NofLoss.Index

end
-- ==== Proof.Spec.lean ====
/-
  What both programs compute, as one function of the argument arrays over the extended reals.
  For an input array x and the target array tg (both [16, 2048, 256, 3]), row (b, s) contributes
      rowVal = ‖x[b,s,·,·] − tg[b,s,·,·]‖₂   if the least entry of tg[b,s,·,·] is ≥ 0,   else 0,
  the norm being sqrt of the sum of the 768 squared differences; `total x tg` is the sum of the contributions of
  all 16 · 2048 rows. The loss is total(out) + f32(0.1) · total(gt1) + f32(0.2) · total(gt2), plus two products of
  the scalar inputs (`tail`). The float words (+∞ as the start of the minimum, the zeros, the four constants)
  are left as the words both programs spell.
-/
import proofs.«167585_j21010980012214_1_alg».proof.Proof.Index

noncomputable section

open scoped BigOperators

namespace Cert.NofLoss.Spec

open Idealize.ShloMosaic Idealize.ShloMosaic.ValueIdx Cert.NofLoss.Index

/-- One row's contribution, from the row's 768 entries of the input and of the target. -/
def rowVal (x tg : Fin 768 → EReal) : EReal :=
  Scalar.select (Ideal.cmp .oge (Finset.univ.fold min (Ideal.ofBits .f32 0x7F800000#32) tg) (Ideal.ofBits .f32 0x00000000#32))
    (Ideal.sqrt (∑ l : Fin 768, (x l - tg l) * (x l - tg l))) (Ideal.ofBits .f32 0x00000000#32)

/-- Row `(b, s)` of an array, as its 768 entries. -/
abbrev rowOf (x : S4.Idx → EReal) (b : Fin 16) (s : Fin 2048) : Fin 768 → EReal := fun l => x (entry b s l)

/-- One input's total over all rows. -/
def total (x tg : S4.Idx → EReal) : EReal :=
  ∑ j : S2.Idx, rowVal (rowOf x (j 0) (j 1)) (rowOf tg (j 0) (j 1))

/-- The same total, block by block: 32 blocks of 1024 consecutive rows. -/
theorem total_blocks (x tg : S4.Idx → EReal) :
    total x tg = ∑ t : Fin 32, ∑ r : Fin 1024,
      rowVal (rowOf x (rowB t r) (rowS t r)) (rowOf tg (rowB t r) (rowS t r)) :=
  sum_rows (fun b s => rowVal (rowOf x b s) (rowOf tg b s))

/-- The scalar terms added at the end: `z + (c₁ · ld) · leg + (gt0 · c₂) · ld`. -/
def tail (z ld leg gt0 : EReal) : EReal :=
  (z + (Ideal.ofBits .f32 0x3B03126F#32 * ld) * leg) + (gt0 * Ideal.ofBits .f32 0x3C23D70A#32) * ld

/-- The weighted total of the three inputs against the target. -/
def weighted (x0 x1 x2 tg : S4.Idx → EReal) : EReal :=
  (total x0 tg + Ideal.ofBits .f32 0x3DCCCCCD#32 * total x1 tg) + Ideal.ofBits .f32 0x3E4CCCCD#32 * total x2 tg

/-- The loss: the weighted total plus the scalar terms (`gt0`, `leg`, `ld` are the one-element inputs). -/
def loss (x0 x1 x2 tg : S4.Idx → EReal) (gt0 leg ld : (⟨1, ![1]⟩ : Shape).Idx → EReal) : EReal :=
  tail (weighted x0 x1 x2 tg) (ld (ix1 0)) (leg (ix1 0)) (gt0 (ix1 0))

end Cert.NofLoss.Spec

end
-- ==== Proof.KBlock.lean ====
/-
  One block of the kernel, at the ideal instance.
  The body loads a block of 1024 rows of each of the four reshaped arrays. For an input block X and the target
  block T it forms, row by row, the minimum of T's row (lane reduction from +∞), the sum of the squared
  differences of the rows (lane reduction from 0), its square root, the select on "minimum ≥ 0", and sums the
  1024 selected values (sublane reduction): `blockTerm X T`, the sum over the block's rows of `Spec.rowVal`.
  The store adds to the accumulator  blockTerm out + f32(0.1) · blockTerm gt1 + f32(0.2) · blockTerm gt2.
-/
import proofs.«167585_j21010980012214_1_alg».proof.Proof.KPieces
import proofs.«167585_j21010980012214_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Cert.KernelIdeal.Pieces
open Idealize.ShloMosaic Idealize.ShloMosaic.ValueIdx Cert.NofLoss.Index Cert.NofLoss.Spec

/-- Row `r` of a block, as its 768 entries. -/
abbrev brow (X : Vec Ideal S1024x768 .f32) (r : Fin 1024) : Fin 768 → EReal := fun l => X (ix2 r l)

/-- In the lane reduction, row `r` with lane `l` put back is the block index `(r, l)`. -/
theorem lift_lane (r : Fin 1024) (l : Fin 768) : reduces_S1024x768_S1024.lift (ix1 r) l = ix2 r l := by
  funext a
  match a with
  | ⟨0, _⟩ => exact Fin.ext rfl
  | ⟨1, _⟩ => exact Fin.ext rfl

/-- In the sublane reduction of a column, sublane `r` put back is the column index `(r, 0)`. -/
theorem lift_sublane (r : Fin 1024) : reduces_S1024x1_S1.lift (ix1 (0 : Fin 1)) r = ix2 r (0 : Fin 1) := by
  funext a
  match a with
  | ⟨0, _⟩ => exact Fin.ext rfl
  | ⟨1, _⟩ => exact Fin.ext rfl

/-- A lane sum kept as a column: at `(r, 0)` the sum of row `r`. -/
theorem lane_sum (sq : FVec Ideal S1024x768 .f32) (r : Fin 1024) :
    shapeCast S1024x1 (multiReduction .add [1] S1024 sq 0x00000000#32 reduces_S1024x768_S1024 (.inl rfl) rfl)
        shapeCasts_S1024_S1024x1 (ix2 r (0 : Fin 1))
      = ∑ l : Fin 768, sq (ix2 r l) := by
  refine (shapeCast_apply _ shapeCasts_S1024_S1024x1 (ix2 r (0 : Fin 1)) (ix1 r) ?_).trans ?_
  · rw [Shape.rowMajor_val_one, Shape.rowMajor_val_two]
    show r.val = r.val * 1 + 0
    omega
  · refine (Ideal.multiReduction_add_single sq _ reduces_S1024x768_S1024 _ _ (ix1 r)).trans ?_
    exact Finset.sum_congr rfl fun l _ => congrArg sq (lift_lane r l)

/-- A lane minimum kept as a column: at `(r, 0)` the fold of `min` from +∞ over row `r`. -/
theorem lane_min (T : FVec Ideal S1024x768 .f32) (r : Fin 1024) :
    shapeCast S1024x1 (multiReduction .minimumf [1] S1024 T 0x7F800000#32 reduces_S1024x768_S1024 (.inl rfl) rfl)
        shapeCasts_S1024_S1024x1 (ix2 r (0 : Fin 1))
      = Finset.univ.fold min (Ideal.ofBits .f32 0x7F800000#32) (fun l : Fin 768 => T (ix2 r l)) := by
  refine (shapeCast_apply _ shapeCasts_S1024_S1024x1 (ix2 r (0 : Fin 1)) (ix1 r) ?_).trans ?_
  · rw [Shape.rowMajor_val_one, Shape.rowMajor_val_two]
    show r.val = r.val * 1 + 0
    omega
  · refine (multiReduction_minimumf_eq_fold T _ reduces_S1024x768_S1024 _ _ (ix1 r)).trans ?_
    refine (reduces_S1024x768_S1024.fold_filter_drop_single FloatOps.minimumf _ T (ix1 r)).trans ?_
    exact congrArg (fun f : Fin 768 → EReal => Finset.univ.fold min (Ideal.ofBits .f32 0x7F800000#32) f)
      (funext fun l => congrArg T (lift_lane r l))

/-- A sublane sum of a column kept as a 1 × 1 block: the sum of the column's 1024 entries. -/
theorem sublane_sum (w : FVec Ideal S1024x1 .f32) :
    shapeCast S1x1 (multiReduction .add [0] S1 w 0x00000000#32 reduces_S1024x1_S1 (.inl rfl) rfl)
        shapeCasts_S1_S1x1 (ix2 (0 : Fin 1) (0 : Fin 1))
      = ∑ r : Fin 1024, w (ix2 r (0 : Fin 1)) := by
  refine (shapeCast_apply _ shapeCasts_S1_S1x1 (ix2 (0 : Fin 1) (0 : Fin 1)) (ix1 (0 : Fin 1)) ?_).trans ?_
  · rw [Shape.rowMajor_val_one, Shape.rowMajor_val_two]
    show (0 : Nat) = 0 * 1 + 0
    omega
  · refine (Ideal.multiReduction_add_single w _ reduces_S1024x1_S1 _ _ (ix1 (0 : Fin 1))).trans ?_
    exact Finset.sum_congr rfl fun r _ => congrArg w (lift_sublane r)

/-! ## The body's three terms -/

section AnyInstance
variable {F : FTy → Type} [FloatOps F]

/-- The squared differences of an input block against the target block. -/
def sqd (X T : Vec F S1024x768 .f32) : FVec F S1024x768 .f32 :=
  mulf (subf (shapeCast S1024x768 X shapeCasts_S1024x768_S1024x768) (k0_pay3 T))
    (subf (shapeCast S1024x768 X shapeCasts_S1024x768_S1024x768) (k0_pay3 T))

/-- From the rows' mask and the squared differences: the masked square roots of the row sums, summed over the rows. -/
def termOf (mask : IVec S1024x1 1) (sq : FVec F S1024x768 .f32) : FVec F S1x1 .f32 :=
  shapeCast S1x1 (multiReduction .add [0] S1
    (select mask
      (sqrt (shapeCast S1024x1 (multiReduction .add [1] S1024 sq 0x00000000#32 reduces_S1024x768_S1024 (.inl rfl) rfl)
        shapeCasts_S1024_S1024x1))
      (broadcast S1024x1 (Scalar.ofBits .f32 0x00000000#32)))
    0x00000000#32 reduces_S1024x1_S1 (.inl rfl) rfl) shapeCasts_S1_S1x1

/-- The stored value: the accumulator plus the three terms, the second and third weighted. -/
theorem stepVal_eq (x0 x1 x2 x3 : Vec F S1024x768 .f32) (acc : Vec F S1x1 .f32) :
    stepVal x0 x1 x2 x3 acc = addf (shapeCast S1x1 acc shapeCasts_S1x1_S1x1)
      (addf (addf (termOf (k0_pay4 x3) (sqd x0 x3))
          (mulf (broadcast S1x1 (Scalar.ofBits .f32 0x3DCCCCCD#32)) (termOf (k0_pay4 x3) (sqd x1 x3))))
        (mulf (broadcast S1x1 (Scalar.ofBits .f32 0x3E4CCCCD#32)) (termOf (k0_pay4 x3) (sqd x2 x3)))) := rfl

end AnyInstance

/-- The squared differences at `(r, l)`. -/
theorem sqd_apply (X T : Vec Ideal S1024x768 .f32) (r : Fin 1024) (l : Fin 768) :
    sqd X T (ix2 r l) = (brow X r l - brow T r l) * (brow X r l - brow T r l) := by
  unfold sqd k0_pay3
  rw [shapeCast_self, shapeCast_self]
  rfl

/-- The mask, spelt out: compare the lane minimum of the target block, kept as a column, with 0. -/
theorem pay4_eq {F : FTy → Type} [FloatOps F] (T : Vec F S1024x768 .f32) :
    k0_pay4 T = cmpf .oge
      (shapeCast S1024x1 (multiReduction .minimumf [1] S1024 T 0x7F800000#32 reduces_S1024x768_S1024 (.inl rfl) rfl)
        shapeCasts_S1024_S1024x1)
      (broadcast S1024x1 (Scalar.ofBits .f32 0x00000000#32)) := by
  unfold k0_pay4 k0_pay3
  rw [shapeCast_self]

/-- The mask at row `r`: is the least entry of the target's row at least 0. -/
theorem mask_apply (T : Vec Ideal S1024x768 .f32) (r : Fin 1024) :
    k0_pay4 (F := Ideal) T (ix2 r (0 : Fin 1))
      = Ideal.cmp .oge (Finset.univ.fold min (Ideal.ofBits .f32 0x7F800000#32) (brow T r)) (Ideal.ofBits .f32 0x00000000#32) := by
  rw [pay4_eq, cmpf_apply, broadcast_apply, lane_min]
  rfl

/-- A term at the block's one index: the sum over the rows of the masked square root of the row's sum. -/
theorem termOf_apply (mask : IVec S1024x1 1) (sq : FVec Ideal S1024x768 .f32) :
    termOf mask sq (ix2 (0 : Fin 1) (0 : Fin 1))
      = ∑ r : Fin 1024, Scalar.select (mask (ix2 r (0 : Fin 1))) (Ideal.sqrt (∑ l : Fin 768, sq (ix2 r l)))
          (Ideal.ofBits .f32 0x00000000#32) := by
  unfold termOf
  refine (sublane_sum _).trans ?_
  refine Finset.sum_congr rfl fun r _ => ?_
  exact congrArg (fun v : EReal => Scalar.select (mask (ix2 r (0 : Fin 1))) (Ideal.sqrt v) (Ideal.ofBits .f32 0x00000000#32))
    (lane_sum sq r)

/-- One input's contribution from one block: the sum of its 1024 rows' contributions. -/
def blockTerm (X T : Vec Ideal S1024x768 .f32) : EReal := ∑ r : Fin 1024, rowVal (brow X r) (brow T r)

/-- The body's term for an input block is that block's contribution. -/
theorem term_block (X T : Vec Ideal S1024x768 .f32) :
    termOf (k0_pay4 (F := Ideal) T) (sqd X T) (ix2 (0 : Fin 1) (0 : Fin 1)) = blockTerm X T := by
  rw [termOf_apply]
  unfold blockTerm
  refine Finset.sum_congr rfl fun r _ => ?_
  rw [mask_apply, Finset.sum_congr rfl fun l _ => sqd_apply X T r l]
  rfl

/-- The 1 × 1 block has one index. -/
theorem one_idx (j : S1x1.Idx) : j = ix2 (0 : Fin 1) (0 : Fin 1) := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)

/-- What the store leaves: the accumulator's value plus this block's weighted contributions. -/
theorem step_fun (x0 x1 x2 x3 : Vec Ideal S1024x768 .f32) (acc : Vec Ideal S1x1 .f32) :
    stepVal x0 x1 x2 x3 acc = fun _ => acc (ix2 (0 : Fin 1) (0 : Fin 1))
      + ((blockTerm x0 x3 + Ideal.ofBits .f32 0x3DCCCCCD#32 * blockTerm x1 x3)
        + Ideal.ofBits .f32 0x3E4CCCCD#32 * blockTerm x2 x3) := by
  funext j
  rw [one_idx j, stepVal_eq, shapeCast_self]
  rw [addf_apply, addf_apply, addf_apply, mulf_apply, mulf_apply, broadcast_apply, broadcast_apply,
    term_block, term_block, term_block]
  rfl

end Cert.KernelIdeal.BlockValue

end
-- ==== Proof.KInput.lean ====
/-
  The kernel's input blocks, read back to the argument arrays. Before the call each argument [16, 2048, 256, 3] is
  reshaped to [32768, 768]; window w stages rows 1024·t … 1024·t + 1023 at grid point t. So entry (r, l) of the
  block is entry l of row 1024·t + r of the argument (`Index.reshape_row`).
-/
import proofs.«167585_j21010980012214_1_alg».proof.Proof.Gen.KernelIdeal.Frame
import proofs.«167585_j21010980012214_1_alg».proof.Proof.Index
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KInput

open Cert.KernelIdeal Cert.KernelIdeal.Gen
open Idealize.ShloMosaic.ValueIdx Cert.NofLoss.Index

variable {F : FTy → Type} [FloatOps F]
variable (m : (ℓ : Loc nD τ sig) → Buf (Elt F) ℓ)

/-- A grid point as a number below 32. -/
abbrev pt (t : Fin cfg0.N) : Fin 32 := ⟨t.val, lt_of_lt_of_eq t.isLt (show cfg0.N = 32 from N_0)⟩

/-- The region finds `main_v0` as argument 0 reshaped to 32768 rows of 768. -/
theorem V_v0 (c : Dev nD) :
    V m c main_v0 = shapeCast S32768x768 (m ((c : Thread nD τ).loc main_arg0)) shapeCasts_S16x2048x256x3_S32768x768 := by
  show StableHlo.after hostOps0 (fun b => m (c, b)) (Proc.devRef .tc main_v0) = _
  after_results
  rfl

/-- Window 0's block at point `t` starts at row `1024 · t`, lane 0. -/
theorem idx_facts0 : ∀ t : Fin cfg0.N, win0_0.index t 0 = t.val ∧ win0_0.index t 1 = 0 :=
  (by decide +kernel : ∀ t : Fin grid0.N, win0_0.index t 0 = t.val ∧ win0_0.index t 1 = 0)

/-- Entry `(r, l)` of window 0's block at point `t` is entry `l` of row `1024 · t + r` of argument 0. -/
theorem blk_read0 (c : Dev nD) (t : Fin cfg0.N) (r : Fin 1024) (l : Fin 768) :
    (iblk m c 0 t : Vec F S1024x768 .f32) (ix2 r l)
      = m ((c : Thread nD τ).loc main_arg0) (entry (rowB (pt t) r) (rowS (pt t) r) l) := by
  unfold iblk
  rw [View.read_apply]
  show V m c main_v0 _ = _
  rw [V_v0]
  refine (congrArg (shapeCast S32768x768 (m ((c : Thread nD τ).loc main_arg0)) shapeCasts_S16x2048x256x3_S32768x768) ?_).trans
    (reshape_row _ _ (pt t) r l)
  funext a
  apply Fin.ext
  match a with
  | ⟨0, _⟩ =>
    show win0_0.index t 0 * 1024 + 1 * r.val = 1024 * t.val + r.val
    rw [(idx_facts0 t).1]; omega
  | ⟨1, _⟩ =>
    show win0_0.index t 1 * 768 + 1 * l.val = l.val
    rw [(idx_facts0 t).2]; omega

/-- The region finds `main_v1` as argument 1 reshaped to 32768 rows of 768. -/
theorem V_v1 (c : Dev nD) :
    V m c main_v1 = shapeCast S32768x768 (m ((c : Thread nD τ).loc main_arg1)) shapeCasts_S16x2048x256x3_S32768x768 := by
  show StableHlo.after hostOps0 (fun b => m (c, b)) (Proc.devRef .tc main_v1) = _
  after_results
  rfl

/-- Window 1's block at point `t` starts at row `1024 · t`, lane 0. -/
theorem idx_facts1 : ∀ t : Fin cfg0.N, win0_1.index t 0 = t.val ∧ win0_1.index t 1 = 0 :=
  (by decide +kernel : ∀ t : Fin grid0.N, win0_1.index t 0 = t.val ∧ win0_1.index t 1 = 0)

/-- Entry `(r, l)` of window 1's block at point `t` is entry `l` of row `1024 · t + r` of argument 1. -/
theorem blk_read1 (c : Dev nD) (t : Fin cfg0.N) (r : Fin 1024) (l : Fin 768) :
    (iblk m c 1 t : Vec F S1024x768 .f32) (ix2 r l)
      = m ((c : Thread nD τ).loc main_arg1) (entry (rowB (pt t) r) (rowS (pt t) r) l) := by
  unfold iblk
  rw [View.read_apply]
  show V m c main_v1 _ = _
  rw [V_v1]
  refine (congrArg (shapeCast S32768x768 (m ((c : Thread nD τ).loc main_arg1)) shapeCasts_S16x2048x256x3_S32768x768) ?_).trans
    (reshape_row _ _ (pt t) r l)
  funext a
  apply Fin.ext
  match a with
  | ⟨0, _⟩ =>
    show win0_1.index t 0 * 1024 + 1 * r.val = 1024 * t.val + r.val
    rw [(idx_facts1 t).1]; omega
  | ⟨1, _⟩ =>
    show win0_1.index t 1 * 768 + 1 * l.val = l.val
    rw [(idx_facts1 t).2]; omega

/-- The region finds `main_v2` as argument 2 reshaped to 32768 rows of 768. -/
theorem V_v2 (c : Dev nD) :
    V m c main_v2 = shapeCast S32768x768 (m ((c : Thread nD τ).loc main_arg2)) shapeCasts_S16x2048x256x3_S32768x768 := by
  show StableHlo.after hostOps0 (fun b => m (c, b)) (Proc.devRef .tc main_v2) = _
  after_results
  rfl

/-- Window 2's block at point `t` starts at row `1024 · t`, lane 0. -/
theorem idx_facts2 : ∀ t : Fin cfg0.N, win0_2.index t 0 = t.val ∧ win0_2.index t 1 = 0 :=
  (by decide +kernel : ∀ t : Fin grid0.N, win0_2.index t 0 = t.val ∧ win0_2.index t 1 = 0)

/-- Entry `(r, l)` of window 2's block at point `t` is entry `l` of row `1024 · t + r` of argument 2. -/
theorem blk_read2 (c : Dev nD) (t : Fin cfg0.N) (r : Fin 1024) (l : Fin 768) :
    (iblk m c 2 t : Vec F S1024x768 .f32) (ix2 r l)
      = m ((c : Thread nD τ).loc main_arg2) (entry (rowB (pt t) r) (rowS (pt t) r) l) := by
  unfold iblk
  rw [View.read_apply]
  show V m c main_v2 _ = _
  rw [V_v2]
  refine (congrArg (shapeCast S32768x768 (m ((c : Thread nD τ).loc main_arg2)) shapeCasts_S16x2048x256x3_S32768x768) ?_).trans
    (reshape_row _ _ (pt t) r l)
  funext a
  apply Fin.ext
  match a with
  | ⟨0, _⟩ =>
    show win0_2.index t 0 * 1024 + 1 * r.val = 1024 * t.val + r.val
    rw [(idx_facts2 t).1]; omega
  | ⟨1, _⟩ =>
    show win0_2.index t 1 * 768 + 1 * l.val = l.val
    rw [(idx_facts2 t).2]; omega

/-- The region finds `main_v3` as argument 3 reshaped to 32768 rows of 768. -/
theorem V_v3 (c : Dev nD) :
    V m c main_v3 = shapeCast S32768x768 (m ((c : Thread nD τ).loc main_arg3)) shapeCasts_S16x2048x256x3_S32768x768 := by
  show StableHlo.after hostOps0 (fun b => m (c, b)) (Proc.devRef .tc main_v3) = _
  after_results
  rfl

/-- Window 3's block at point `t` starts at row `1024 · t`, lane 0. -/
theorem idx_facts3 : ∀ t : Fin cfg0.N, win0_3.index t 0 = t.val ∧ win0_3.index t 1 = 0 :=
  (by decide +kernel : ∀ t : Fin grid0.N, win0_3.index t 0 = t.val ∧ win0_3.index t 1 = 0)

/-- Entry `(r, l)` of window 3's block at point `t` is entry `l` of row `1024 · t + r` of argument 3. -/
theorem blk_read3 (c : Dev nD) (t : Fin cfg0.N) (r : Fin 1024) (l : Fin 768) :
    (iblk m c 3 t : Vec F S1024x768 .f32) (ix2 r l)
      = m ((c : Thread nD τ).loc main_arg3) (entry (rowB (pt t) r) (rowS (pt t) r) l) := by
  unfold iblk
  rw [View.read_apply]
  show V m c main_v3 _ = _
  rw [V_v3]
  refine (congrArg (shapeCast S32768x768 (m ((c : Thread nD τ).loc main_arg3)) shapeCasts_S16x2048x256x3_S32768x768) ?_).trans
    (reshape_row _ _ (pt t) r l)
  funext a
  apply Fin.ext
  match a with
  | ⟨0, _⟩ =>
    show win0_3.index t 0 * 1024 + 1 * r.val = 1024 * t.val + r.val
    rw [(idx_facts3 t).1]; omega
  | ⟨1, _⟩ =>
    show win0_3.index t 1 * 768 + 1 * l.val = l.val
    rw [(idx_facts3 t).2]; omega

end Cert.KernelIdeal.KInput

end
-- ==== Proof.SumLaw.lean ====
/-
  Sums of extended reals: a factor that is a non-negative real passes through a finite sum, so a total
  accumulated block by block as a + α·b + β·c is the weighted sum of the three totals.
  The extended reals are not a semiring (x·(y + z) = x·y + x·z fails when y = +∞, z = −∞ and x < 0, and at
  x = ±∞), but for a factor x with 0 ≤ x < +∞ the law holds for every y and z; induction over the index set
  carries it to a finite sum. Splitting a sum of sums needs only commutativity and associativity of +.
-/
import Idealize.ShloMosaic.PureOps.Ideal.Laws

noncomputable section

open scoped BigOperators

namespace Cert.NofLoss.SumLaw

/-- A factor `a` with `0 ≤ a` and `a ≠ ⊤` distributes over a finite sum of extended reals. -/
theorem scale_sum {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Summing `a i + α · b i + β · c i` over `i` gives `∑ a + α · ∑ b + β · ∑ c`, for weights `α`, `β` that are
    non-negative reals. -/
theorem weighted_sum {ι : Type*} (α β : EReal) (hα : 0 ≤ α) (hα' : α ≠ ⊤) (hβ : 0 ≤ β) (hβ' : β ≠ ⊤)
    (s : Finset ι) (a b c : ι → EReal) :
    ∑ i ∈ s, ((a i + α * b i) + β * c i) = (∑ i ∈ s, a i + α * ∑ i ∈ s, b i) + β * ∑ i ∈ s, c i := by
  rw [Finset.sum_add_distrib, Finset.sum_add_distrib, scale_sum α hα hα', scale_sum β hβ hβ']

end Cert.NofLoss.SumLaw

end
-- ==== Proof.Consts.lean ====
/-
  The two weights of the loss, f32(0.1) and f32(0.2), as extended reals: each is a non-negative real number
  (neither infinity), which is all the proof uses of them; their exact binary values never matter, because
  both programs spell the same words.
-/
import Idealize.ShloMosaic.PureOps.Ideal.Laws

noncomputable section

namespace Cert.NofLoss.Consts

open Idealize.ShloMosaic

/-- The word of f32(0.1) denotes a non-negative extended real … -/
theorem tenth_nonneg : 0 ≤ Ideal.ofBits .f32 0x3DCCCCCD#32 := by
  simp [Ideal.ofBits, Ideal.ieee, -EReal.coe_mul]
/-- … that is not +∞. -/
theorem tenth_ne_top : Ideal.ofBits .f32 0x3DCCCCCD#32 ≠ ⊤ := by
  simp [Ideal.ofBits, Ideal.ieee, -EReal.coe_mul]
/-- The word of f32(0.2) denotes a non-negative extended real … -/
theorem fifth_nonneg : 0 ≤ Ideal.ofBits .f32 0x3E4CCCCD#32 := by
  simp [Ideal.ofBits, Ideal.ieee, -EReal.coe_mul]
/-- … that is not +∞. -/
theorem fifth_ne_top : Ideal.ofBits .f32 0x3E4CCCCD#32 ≠ ⊤ := by
  simp [Ideal.ofBits, Ideal.ieee, -EReal.coe_mul]

end Cert.NofLoss.Consts

end
-- ==== Proof.KValue.lean ====
/-
  The kernel's result. The accumulator is zeroed at the first grid point and every point adds its block's weighted
  contribution, so after point n it holds 0 + the sum of the contributions of blocks 0 … n (induction on the
  point). It is written back once, after the last point, and its 1 × 1 block is the whole result array. The 32
  blocks of 1024 rows are all 32768 rows, each once, and the weights pass through the sums, so the array ends at
  the weighted total `Spec.weighted` of the argument arrays; the operations after the call add the scalar terms.
-/
import proofs.«167585_j21010980012214_1_alg».proof.Proof.KBlock
import proofs.«167585_j21010980012214_1_alg».proof.Proof.KInput
import proofs.«167585_j21010980012214_1_alg».proof.Proof.SumLaw
import proofs.«167585_j21010980012214_1_alg».proof.Proof.Consts
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.BlockValue
open Idealize.ShloMosaic.ValueIdx Cert.NofLoss.Index Cert.NofLoss.Spec Cert.KernelIdeal.KInput

variable (m : (ℓ : Loc nD τ sig) → Buf (Elt Ideal) ℓ) (ρ : Dev nD → PrngReg)

/-- The four input blocks at grid point `t`: of out, gt1, gt2 and the target. -/
abbrev blk0 (c : Dev nD) (t : Fin cfg0.N) : Vec Ideal S1024x768 .f32 := iblk m c 0 t
abbrev blk1 (c : Dev nD) (t : Fin cfg0.N) : Vec Ideal S1024x768 .f32 := iblk m c 1 t
abbrev blk2 (c : Dev nD) (t : Fin cfg0.N) : Vec Ideal S1024x768 .f32 := iblk m c 2 t
abbrev blk3 (c : Dev nD) (t : Fin cfg0.N) : Vec Ideal S1024x768 .f32 := iblk m c 3 t

/-- What grid point `t` adds to the accumulator. -/
def blockVal (c : Dev nD) (t : Fin cfg0.N) : EReal :=
  (blockTerm (blk0 m c t) (blk3 m c t) + Ideal.ofBits .f32 0x3DCCCCCD#32 * blockTerm (blk1 m c t) (blk3 m c t))
    + Ideal.ofBits .f32 0x3E4CCCCD#32 * blockTerm (blk2 m c t) (blk3 m c t)

/-- The same by position (zero past the grid), to sum over a range. -/
def blockValN (c : Dev nD) (n : ℕ) : EReal := if h : n < cfg0.N then blockVal m c ⟨n, h⟩ else 0

/-- The accumulator after position `n`. -/
def accAt (c : Dev nD) (n : ℕ) : Vec Ideal S1x1 .f32 :=
  fun _ => Ideal.ofBits .f32 0x00000000#32 + ∑ k ∈ Finset.range (n + 1), blockValN m c k

/-- The accumulator's contents after each point are the running sum. -/
theorem outsAt_eq (c : Dev nD) : ∀ (n : ℕ) (h : n < cfg0.N), outsAt0 m c n h = accAt m c n
  | 0, h => by
    rw [outsAt0_A m c ⟨0, h⟩ rfl, out_A, step_fun]
    funext j
    show Ideal.ofBits .f32 0x00000000#32 + blockVal m c ⟨0, h⟩ = Ideal.ofBits .f32 0x00000000#32 + ∑ k ∈ Finset.range 1, blockValN m c k
    rw [Finset.sum_range_one]
    unfold blockValN
    rw [dif_pos h]
  | n + 1, h => by
    have hN : cfg0.N = 32 := N_0
    have hB : ¬(⟨n + 1, h⟩ : Fin cfg0.N).val % 32 = 0 := by dsimp only; omega
    rw [outsAt0_B m c ⟨n + 1, h⟩ hB, out_B, step_fun]
    funext j
    show outsAt0 m c n _ (ix2 (0 : Fin 1) (0 : Fin 1)) + blockVal m c ⟨n + 1, h⟩ = _
    rw [outsAt_eq c n]
    show (Ideal.ofBits .f32 0x00000000#32 + ∑ k ∈ Finset.range (n + 1), blockValN m c k) + blockVal m c ⟨n + 1, h⟩
      = Ideal.ofBits .f32 0x00000000#32 + ∑ k ∈ Finset.range (n + 1 + 1), blockValN m c k
    rw [Finset.sum_range_succ _ (n + 1), add_assoc]
    congr 2
    unfold blockValN
    rw [dif_pos h]

/-! ## The running sum over the argument arrays -/

/-- One input's contribution from the 1024 rows of block `p`, over the argument arrays. -/
def rowsOf (x tg : S4.Idx → EReal) (p : Fin 32) : EReal :=
  ∑ r : Fin 1024, rowVal (rowOf x (rowB p r) (rowS p r)) (rowOf tg (rowB p r) (rowS p r))

/-- An input's total is the sum of its contributions from the 32 blocks. -/
theorem total_rows (x tg : S4.Idx → EReal) : total x tg = ∑ p : Fin 32, rowsOf x tg p := total_blocks x tg

/-- A block whose entries are the arrays' entries of rows `1024·p …` contributes those rows' contributions. -/
theorem blockTerm_of_reads (X T : Vec Ideal S1024x768 .f32) (x tg : S4.Idx → EReal) (p : Fin 32)
    (hX : ∀ r l, X (ix2 r l) = x (entry (rowB p r) (rowS p r) l))
    (hT : ∀ r l, T (ix2 r l) = tg (entry (rowB p r) (rowS p r) l)) : blockTerm X T = rowsOf x tg p := by
  unfold blockTerm rowsOf
  refine Finset.sum_congr rfl fun r _ => ?_
  rw [show brow X r = rowOf x (rowB p r) (rowS p r) from funext fun l => hX r l,
    show brow T r = rowOf tg (rowB p r) (rowS p r) from funext fun l => hT r l]

/-- What position `p` adds, over the argument arrays. -/
theorem blockVal_rows (c : Dev nD) (p : Fin 32) :
    blockValN m c p.val
      = (rowsOf (m ((c : Thread nD τ).loc main_arg0)) (m ((c : Thread nD τ).loc main_arg3)) p + Ideal.ofBits .f32 0x3DCCCCCD#32 * rowsOf (m ((c : Thread nD τ).loc main_arg1)) (m ((c : Thread nD τ).loc main_arg3)) p)
        + Ideal.ofBits .f32 0x3E4CCCCD#32 * rowsOf (m ((c : Thread nD τ).loc main_arg2)) (m ((c : Thread nD τ).loc main_arg3)) p := by
  have hp : p.val < cfg0.N := lt_of_lt_of_eq p.isLt (show cfg0.N = 32 from N_0).symm
  unfold blockValN
  rw [dif_pos hp]
  unfold blockVal
  rw [blockTerm_of_reads (blk0 m c ⟨p.val, hp⟩) (blk3 m c ⟨p.val, hp⟩) (m ((c : Thread nD τ).loc main_arg0)) (m ((c : Thread nD τ).loc main_arg3)) p
      (fun r l => blk_read0 m c ⟨p.val, hp⟩ r l) (fun r l => blk_read3 m c ⟨p.val, hp⟩ r l),
    blockTerm_of_reads (blk1 m c ⟨p.val, hp⟩) (blk3 m c ⟨p.val, hp⟩) (m ((c : Thread nD τ).loc main_arg1)) (m ((c : Thread nD τ).loc main_arg3)) p
      (fun r l => blk_read1 m c ⟨p.val, hp⟩ r l) (fun r l => blk_read3 m c ⟨p.val, hp⟩ r l),
    blockTerm_of_reads (blk2 m c ⟨p.val, hp⟩) (blk3 m c ⟨p.val, hp⟩) (m ((c : Thread nD τ).loc main_arg2)) (m ((c : Thread nD τ).loc main_arg3)) p
      (fun r l => blk_read2 m c ⟨p.val, hp⟩ r l) (fun r l => blk_read3 m c ⟨p.val, hp⟩ r l)]

/-- After the last point the accumulator holds the weighted total of the argument arrays. -/
theorem acc_last (c : Dev nD) :
    accAt m c 31 = fun _ => weighted (m ((c : Thread nD τ).loc main_arg0)) (m ((c : Thread nD τ).loc main_arg1)) (m ((c : Thread nD τ).loc main_arg2)) (m ((c : Thread nD τ).loc main_arg3)) := by
  funext j
  show Ideal.ofBits .f32 0x00000000#32 + ∑ k ∈ Finset.range 32, blockValN m c k = _
  rw [Ideal.ofBits_zero_f32, zero_add, ← Fin.sum_univ_eq_sum_range (fun k => blockValN m c k) 32,
    Finset.sum_congr rfl fun p _ => blockVal_rows m c p,
    Cert.NofLoss.SumLaw.weighted_sum _ _ Cert.NofLoss.Consts.tenth_nonneg Cert.NofLoss.Consts.tenth_ne_top
      Cert.NofLoss.Consts.fifth_nonneg Cert.NofLoss.Consts.fifth_ne_top,
    ← total_rows, ← total_rows, ← total_rows]
  unfold weighted
  rfl

/-! ## The result array -/

theorem last_lt : 31 < cfg0.N := by rw [show cfg0.N = 32 from N_0]; decide
/-- The last grid point. -/
abbrev tLast : Fin cfg0.N := ⟨31, last_lt⟩

/-- What the result array ends holding. -/
abbrev resArr (c : Dev nD) : Buf (Elt Ideal) ((c : Thread nD τ).loc main_v4) := accAt m c 31

/-- The one write-back, after the last point, writes the accumulator: its 1 × 1 block at offset 0 is the array. -/
theorem flushed_eq (c : Dev nD) (t : Fin cfg0.N) (hf : (cfg0.win 4).flush t = true) :
    (dats m 0 c).flushed 4 t = ((cfg0.win 4).blk t).view.read (Elt Ideal) (resArr m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, outsAt_eq]
  have hz' : (fun a => win0_4.index tLast a * main_v4.ty.shape.size a) = fun _ => 0 :=
    funext fun a => by fin_cases a <;> decide
  exact (Memref.read_access_unit_zero (Elt Ideal) main_v4 hz' (fun a => by rw [congrFun hz' a]; simp) (resArr m c)).symm

/-- So the result array ends at the accumulator after the last point. -/
theorem final_arr (c : Dev nD) : (dats m 0 c).arrAt 4 cfg0.N = resArr m c :=
  (dats m 0 c).arrAt_eq_of_cover 4 (resArr m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]
        omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]
        omega⟩

/-! ## The operations after the call -/

/-- After the region the result array's buffer holds what the pipeline computed … -/
theorem wa_v4 (c : Dev nD) : Pipeline.withArrays (cfgs 0).spec c (V0 m c) (fun w => (dats m 0 c).arrAt w (cfgs 0).N) (Proc.devRef .tc main_v4) = (dats m 0 c).arrAt 4 cfg0.N :=
  Pipeline.withArrays_arr spec0 launch0.win.arr_inj c _ _ 4

/-- … and the scalar arguments, which no window stages and no operation before the call writes, hold their
    launch contents. -/
theorem wa_arg4 (c : Dev nD) : Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)
theorem wa_arg5 (c : Dev nD) : Pipeline.withArrays (cfgs 0).spec c (V0 m c) (fun w => (dats m 0 c).arrAt w (cfgs 0).N) (Proc.devRef .tc main_arg5) = m ((c : Thread nD τ).loc main_arg5) :=
  (Pipeline.withArrays_of_ne _ c (V0 m c) _ main_arg5 (by exact (by decide : ∀ w, Pipeline.arrRef spec0 w ≠ main_arg5))).trans
    (V_main_arg5 m c)
theorem wa_arg6 (c : Dev nD) : Pipeline.withArrays (cfgs 0).spec c (V0 m c) (fun w => (dats m 0 c).arrAt w (cfgs 0).N) (Proc.devRef .tc main_arg6) = m ((c : Thread nD τ).loc main_arg6) :=
  (Pipeline.withArrays_of_ne _ c (V0 m c) _ main_arg6 (by exact (by decide : ∀ w, Pipeline.arrRef spec0 w ≠ main_arg6))).trans
    (V_main_arg6 m c)

/-- The operations after the call: the result array's one entry plus the two products of the scalar inputs. -/
theorem tail_val (c : Dev nD) :
    Pipeline.afterTail₀ cfgs (dats m) 0 (V0 m) [hostOps1] c main_v14
      = fun _ => tail ((dats m 0 c).arrAt 4 cfg0.N (ix2 (0 : Fin 1) (0 : Fin 1))) ((m ((c : Thread nD τ).loc main_arg6)) (ix1 (0 : Fin 1)))
          ((m ((c : Thread nD τ).loc main_arg5)) (ix1 (0 : Fin 1))) ((m ((c : Thread nD τ).loc main_arg4)) (ix1 (0 : Fin 1))) := by
  unfold Pipeline.afterTail₀
  show StableHlo.after hostOps1 _ (Proc.devRef .tc main_v14) = _
  after_results
  rw [wa_v4, wa_arg4, wa_arg5, wa_arg6]
  funext j
  show ((shapeCast (s := S1x1) (α := EReal) S_ ((dats m 0 c).arrAt 4 cfg0.N) shapeCasts_S1x1_S_ j
        + (Ideal.ofBits .f32 0x3B03126F#32 * shapeCast (s := S1) (α := EReal) S_ (m ((c : Thread nD τ).loc main_arg6)) shapeCasts_S1_S_ j)
          * shapeCast (s := S1) (α := EReal) S_ (m ((c : Thread nD τ).loc main_arg5)) shapeCasts_S1_S_ j)
      + (shapeCast (s := S1) (α := EReal) S_ (m ((c : Thread nD τ).loc main_arg4)) shapeCasts_S1_S_ j * Ideal.ofBits .f32 0x3C23D70A#32)
        * shapeCast (s := S1) (α := EReal) S_ (m ((c : Thread nD τ).loc main_arg6)) shapeCasts_S1_S_ j) = _
  rw [reshape_unit, reshape_scalar, reshape_scalar, reshape_scalar]
  rfl

/-! ## The run, read -/

/-- What @main's result holds after the run: the loss of the argument arrays. -/
theorem result_val (c : Dev nD) :
    Pipeline.afterTail₀ cfgs (dats m) 0 (V0 m) [hostOps1] c main_v14
      = fun _ => loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail_val, final_arr]
  show (fun _ => tail (accAt m c 31 (ix2 (0 : Fin 1) (0 : Fin 1))) _ _ _) = _
  rw [acc_last]
  rfl

/-- Every weakly fair execution of the kernel's program terminates with the result at the loss of the argument
    arrays, and the arguments unchanged. -/
theorem run : θ_run defs (onTc (τ := τ) (main (F := Ideal))) ⟨m, fun _ => 0, ρ⟩ fun r => ∀ c : Dev nD,
      r.2.mem ((c.tc : Thread nD τ).loc main_v14)
        = (fun _ => loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v14 (Pipeline.mem_restRefs_of main_v14 (by decide) (by decide))).trans (result_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefSide.lean ====
/-
  The reference computes `Spec.loss`.
  Its three terms are the same operations on (out, target), (gt1, target), (gt2, target). For one term: the
  reductions over the last two axes run over the 768 entries of a row (`Index.row_fiber`), so the masked norm at
  (b, s) is `Spec.rowVal` of the two rows; the sum over the first two axes is the sum over all rows, `Spec.total`.
  The weights and the scalar tail are read off operation by operation.
-/
import proofs.«167585_j21010980012214_1_alg».proof.Proof.Gen.ReferenceIdeal.Read
import proofs.«167585_j21010980012214_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NofLoss.Index Cert.NofLoss.Spec

/-- The minimum over the last two axes, at (b, s): the fold of `min` from +∞ over the row's entries. -/
theorem row_min (tg : (⟨S16x2048x256x3, .f32⟩ : BufTy).Contents (Elt Ideal)) (b : Fin 16) (s : Fin 2048) :
    val_main_v4 (F := Ideal) tg (ix2 b s) = Finset.univ.fold min (Ideal.ofBits .f32 0x7F800000#32) (rowOf tg b s) := by
  unfold val_main_v4
  rw [Host.reduce_eq_fold, row_fiber, Finset.fold_map]
  rfl

/-- The sum of squared differences over the last two axes, at (b, s): the sum over the row's entries (from 0). -/
theorem row_sq (x tg : (⟨S16x2048x256x3, .f32⟩ : BufTy).Contents (Elt Ideal)) (b : Fin 16) (s : Fin 2048) :
    val_main_v2 (F := Ideal) x tg (ix2 b s)
      = ∑ l : Fin 768, (rowOf x b s l - rowOf tg b s l) * (rowOf x b s l - rowOf tg b s l) := by
  unfold val_main_v2
  simp only [Host.reduceAdd, Ideal.hostReduceAdd_def]
  unfold Ideal.hostReduceAdd
  rw [row_fiber, Finset.sum_map,
    show val_main_cst (F := Ideal) (Shape.Idx.first h_S_) = 0 from Ideal.ofBits_zero_f32, zero_add]
  rfl

/-- The masked norm at (b, s) is the row's contribution. -/
theorem row_val (x tg : (⟨S16x2048x256x3, .f32⟩ : BufTy).Contents (Elt Ideal)) (b : Fin 16) (s : Fin 2048) :
    val_main_v7 (F := Ideal) x tg (ix2 b s) = rowVal (rowOf x b s) (rowOf tg b s) := by
  rw [val_main_v7_apply, val_main_v6_apply, val_main_v3_apply, row_min, row_sq, val_main_v5_apply,
    val_main_cst_1_apply, val_main_call0_v1_apply, val_main_call0_v0_apply, val_main_cst_2_apply]
  simp only [rowVal, Ideal.cmpf_def, Ideal.hostUnary_sqrt_def, Ideal.ofBits_def]

/-- One term: the sum over the first two axes (from 0) is the total over all rows. -/
theorem term_val (x tg : (⟨S16x2048x256x3, .f32⟩ : BufTy).Contents (Elt Ideal)) :
    val_main_v8 (F := Ideal) x tg ix0 = total x tg := by
  rw [val_main_v8_apply, show val_main_cst_3 (F := Ideal) (Shape.Idx.first h_S_) = 0 from Ideal.ofBits_zero_f32, zero_add]
  unfold total
  refine Finset.sum_congr rfl fun j _ => ?_
  obtain ⟨b, s, rfl⟩ : ∃ (b : Fin 16) (s : Fin 2048), j = ix2 b s := ⟨j 0, j 1, eq_ix2 j⟩
  exact row_val x tg b s

/-- The second and third terms are the first term's operations on another input. -/
theorem term1_eq {F : FTy → Type} [FloatOps F] (x tg : (⟨S16x2048x256x3, .f32⟩ : BufTy).Contents (Elt F)) :
    val_main_v17 (F := F) x tg = val_main_v8 (F := F) x tg := rfl
theorem term2_eq {F : FTy → Type} [FloatOps F] (x tg : (⟨S16x2048x256x3, .f32⟩ : BufTy).Contents (Elt F)) :
    val_main_v28 (F := F) x tg = val_main_v8 (F := F) x tg := rfl

/-- The reference's result is the loss of its arguments. -/
theorem result_val (x0 x1 x2 x3 : (⟨S16x2048x256x3, .f32⟩ : BufTy).Contents (Elt Ideal))
    (x4 x5 x6 : (⟨S1, .f32⟩ : BufTy).Contents (Elt Ideal)) (i : S_.Idx) :
    val_main_v39 (F := Ideal) x0 x1 x2 x3 x4 x5 x6 i = loss x0 x1 x2 x3 x4 x5 x6 := by
  obtain rfl := eq_ix0 i
  rw [val_main_v39_apply, val_main_v36_apply, val_main_v38_apply, val_main_v37_apply, val_main_v35_apply,
    val_main_v34_apply, val_main_v30_apply, val_main_v29_apply, val_main_v19_apply, val_main_v18_apply,
    val_main_cst_9_apply, val_main_cst_15_apply, val_main_cst_16_apply, val_main_cst_17_apply,
    term1_eq, term2_eq, term_val, term_val, term_val]
  unfold val_main_v31 val_main_v32 val_main_v33
  rw [reshape_scalar, reshape_scalar, reshape_scalar]
  simp only [loss, tail, weighted, Ideal.addf_def, Ideal.mulf_def, Ideal.ofBits_def]

end Cert.ReferenceIdeal.RefValue

end
-- ==== Proof.lean ====
/-
  The claim. The two idealized programs compute one function of the argument arrays, `Spec.loss`:
    loss = Σ_rows rowVal(out, tg) + f32(0.1) · Σ_rows rowVal(gt1, tg) + f32(0.2) · Σ_rows rowVal(gt2, tg) + scalar terms,
  where a row (b, s) contributes the Euclidean distance of the 768 entries x[b,s,·,·] and tg[b,s,·,·] when no entry
  of tg[b,s,·,·] is negative, and 0 otherwise. The reference sums each input over all rows and then weighs; the
  kernel walks the rows in 32 blocks, adds  A + f32(0.1)·B + f32(0.2)·C  per block into an accumulator, and adds the
  scalar terms after the call. The two agree because a non-negative real factor passes through a finite sum of
  extended reals and the blocks list every row once (Proof/SumLaw.lean, Proof/Index.lean). Nothing else is used of
  the numbers: the precondition is never opened.
  The frames of the two kernel programs are the generated ones; the reference's frame is its generated run with the
  result dropped; the ideal pass rewrote nothing, so the idealization claim is trivial.
-/
import proofs.«167585_j21010980012214_1_alg».proof.Defs
import proofs.«167585_j21010980012214_1_alg».proof.Proof.Gen.Kernel
import proofs.«167585_j21010980012214_1_alg».proof.Proof.Gen.Kernel.Skeleton
import proofs.«167585_j21010980012214_1_alg».proof.Proof.Gen.Kernel.Launch
import proofs.«167585_j21010980012214_1_alg».proof.Proof.Gen.Kernel.Points
import proofs.«167585_j21010980012214_1_alg».proof.Proof.Gen.Kernel.Frame
import proofs.«167585_j21010980012214_1_alg».proof.Proof.Gen.KernelIdeal
import proofs.«167585_j21010980012214_1_alg».proof.Proof.Gen.KernelIdeal.Skeleton
import proofs.«167585_j21010980012214_1_alg».proof.Proof.Gen.KernelIdeal.Launch
import proofs.«167585_j21010980012214_1_alg».proof.Proof.Gen.KernelIdeal.Points
import proofs.«167585_j21010980012214_1_alg».proof.Proof.Gen.KernelIdeal.Frame
import proofs.«167585_j21010980012214_1_alg».proof.Proof.Gen.ReferenceIdeal
import proofs.«167585_j21010980012214_1_alg».proof.Proof.Gen.ReferenceIdeal.Run
import proofs.«167585_j21010980012214_1_alg».proof.Proof.Gen.ReferenceIdeal.Read
import proofs.«167585_j21010980012214_1_alg».proof.Proof.Gen.Pre_finite_inputs
import proofs.«167585_j21010980012214_1_alg».proof.Proof.KValue
import proofs.«167585_j21010980012214_1_alg».proof.Proof.RefSide
import Idealize.ShloMosaic.Adequacy
import Idealize.ShloMosaic.Init

noncomputable section

namespace Cert.Proof

open Idealize.ShloMosaic Idealize.SL.Sem Cert.NofLoss.Spec

/-- The word-level kernel program runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the loss of their (agreeing) arguments. -/
theorem algebraic : Cert.algebraic_KernelIdeal_ReferenceIdeal := by
  intro m ρ m' ρ' _ hagree
  refine ⟨fun c => fun _ => loss (m (((c.tc : Thread Cert.KernelIdeal.nD Cert.KernelIdeal.τ)).loc Cert.KernelIdeal.main_arg0)) (m (((c.tc : Thread Cert.KernelIdeal.nD Cert.KernelIdeal.τ)).loc Cert.KernelIdeal.main_arg1)) (m (((c.tc : Thread Cert.KernelIdeal.nD Cert.KernelIdeal.τ)).loc Cert.KernelIdeal.main_arg2)) (m (((c.tc : Thread Cert.KernelIdeal.nD Cert.KernelIdeal.τ)).loc Cert.KernelIdeal.main_arg3)) (m (((c.tc : Thread Cert.KernelIdeal.nD Cert.KernelIdeal.τ)).loc Cert.KernelIdeal.main_arg4)) (m (((c.tc : Thread Cert.KernelIdeal.nD Cert.KernelIdeal.τ)).loc Cert.KernelIdeal.main_arg5)) (m (((c.tc : Thread Cert.KernelIdeal.nD Cert.KernelIdeal.τ)).loc Cert.KernelIdeal.main_arg6)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v39_eq]
  funext i
  rw [Cert.ReferenceIdeal.RefValue.result_val, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
